-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x65536 : Shape := ⟨3, ![8, 128, 65536]⟩
abbrev S8x512x65536 : Shape := ⟨3, ![8, 512, 65536]⟩
abbrev S_ : Shape := ⟨0, ![]⟩

class Facts : Prop where
  bcast_S_S8x128x65536 : S_.BroadcastsInDim S8x128x65536 (![] : Fin 0 → Fin S8x128x65536.rank)
  reducesTo_S8x128x65536_S_d0_1_2 : S8x128x65536.ReducesTo [0, 1, 2] S_
  h_S_ : 0 < S_.numel
  bcast_S_S8x512x65536 : S_.BroadcastsInDim S8x512x65536 (![] : Fin 0 → Fin S8x512x65536.rank)
  reducesTo_S8x512x65536_S_d0_1_2 : S8x512x65536.ReducesTo [0, 1, 2] S_

variable [Facts]

def fn {F : FTy → Type} [FloatOps F] (main_arg0 : FVec F S8x128x65536 .f32) (main_arg1 : FVec F S8x512x65536 .f32) : IVec S_ 1 :=
  let main_v0 : FVec F S8x128x65536 .f32 := Host.absf main_arg0
  let main_cst : FVec F S_ .f32 := constant S_ .f32 0x7F800000#32
  let main_v1 : FVec F S8x128x65536 .f32 := broadcastInDim S8x128x65536 ![] bcast_S_S8x128x65536 main_cst
  let main_v2 : IVec S8x128x65536 1 := cmpf .olt main_v0 main_v1
  let main_c : IVec S_ 1 := constantI S_ 1 1#1
  let main_v3 : IVec S_ 1 := (fun x v => Host.reduce IntOp.andi x v reducesTo_S8x128x65536_S_d0_1_2 h_S_) main_v2 main_c
  let main_v4 : FVec F S8x512x65536 .f32 := Host.absf main_arg1
  let main_cst_0 : FVec F S_ .f32 := constant S_ .f32 0x7F800000#32
  let main_v5 : FVec F S8x512x65536 .f32 := broadcastInDim S8x512x65536 ![] bcast_S_S8x512x65536 main_cst_0
  let main_v6 : IVec S8x512x65536 1 := cmpf .olt main_v4 main_v5
  let main_c_1 : IVec S_ 1 := constantI S_ 1 1#1
  let main_v7 : IVec S_ 1 := (fun x v => Host.reduce IntOp.andi x v reducesTo_S8x512x65536_S_d0_1_2 h_S_) main_v6 main_c_1
  let main_v8 : IVec S_ 1 := andi main_v3 main_v7
  main_v8
-- ==== Kernel.lean ====
abbrev S8x128x65536 : Shape := ⟨3, ![8, 128, 65536]⟩
abbrev S8x512x65536 : Shape := ⟨3, ![8, 512, 65536]⟩
abbrev S8x128x512 : Shape := ⟨3, ![8, 128, 512]⟩
abbrev S1x128x4096 : Shape := ⟨3, ![1, 128, 4096]⟩
abbrev S1x512x4096 : Shape := ⟨3, ![1, 512, 4096]⟩
abbrev S1x128x512 : Shape := ⟨3, ![1, 128, 512]⟩
abbrev S128x512 : Shape := ⟨2, ![128, 512]⟩
abbrev S128x4096 : Shape := ⟨2, ![128, 4096]⟩
abbrev S512x4096 : Shape := ⟨2, ![512, 4096]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8x128x65536, .f32⟩
  | .hbm, ⟨1, _⟩ => ⟨S8x512x65536, .f32⟩
  | .hbm, ⟨2, _⟩ => ⟨S8x128x512, .f32⟩
  | .local _ .vmem, ⟨0, _⟩ => ⟨S1x128x4096, .f32⟩
  | .local _ .vmem, ⟨1, _⟩ => ⟨S1x128x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x128x512, .f32⟩
  | .local _ .vmem, ⟨5, _⟩ => ⟨S1x128x512, .f32⟩
  | .local _ .vmem, ⟨6, _⟩ => ⟨S128x512, .f32⟩
  | _, _ => ⟨S8x128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_10 : BitVec 32 := 0#32
  let v18 : BitVec 1 := Scalar.cmpi .ne v17 c0_i32_10
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  transposes_S512x4096_p1_0_S4096x512 : S512x4096.Transposes [1, 0] S4096x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S8x128x65536.size a
  hwx0_0 : ∀ i : grid0.Coords, EltTy.bits .f32 = 32 ∨ (Rect.block (s := S8x128x65536) S1x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S8x512x65536.size a
  hwx0_1 : ∀ i : grid0.Coords, EltTy.bits .f32 = 32 ∨ (Rect.block (s := S8x512x65536) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x128x512.size a
  hwx0_2 : ∀ i : grid0.Coords, EltTy.bits .f32 = 32 ∨ (Rect.block (s := S8x128x512) S1x128x512.size (cc0_transform_2 i) (hinb0_2 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x128x65536 : Shape := ⟨3, ![8, 128, 65536]⟩
abbrev S8x512x65536 : Shape := ⟨3, ![8, 512, 65536]⟩
abbrev S8x128x512 : Shape := ⟨3, ![8, 128, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x128x65536, .f32⟩
  | .hbm, ⟨1, _⟩ => ⟨S8x512x65536, .f32⟩
  | .hbm, ⟨2, _⟩ => ⟨S8x128x512, .f32⟩
  | _, _ => ⟨S8x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x128x65536_S8x512x65536_S8x128x512_2_2_1_1_0_0_wf : DotDims.WF S8x128x65536 S8x512x65536 S8x128x512 [2] [2] [1] [1] [0] [0]

variable [Facts₀]

def dot_S8x128x65536_S8x512x65536_S8x128x512_2_2_1_1_0_0 : DotDims S8x128x65536 S8x512x65536 S8x128x512 where
  lhsContracting := [2]
  rhsContracting := [2]
  lhsNonContracting := [1]
  rhsNonContracting := [1]
  lhsBatch := [0]
  rhsBatch := [0]
  wf := dot_S8x128x65536_S8x512x65536_S8x128x512_2_2_1_1_0_0_wf

class Facts : Prop extends Facts₀ where

variable [Facts]
-- ==== Proof.Pieces.lean ====
/-
  What one run of the kernel body leaves behind, read back as values.

  The body keeps a 128 × 512 accumulator in a scratch buffer. At the first tile of a batch it stores zeros there, loads
  them back, and stores `zeros + (x-tile · mask-tileᵀ)`; at every other tile it loads what the previous point left and
  stores `previous + (x-tile · mask-tileᵀ)`; at the last tile of a batch it also copies the accumulator, as stored, to
  the output block. Each of these is one covering store through the whole buffer, so what the buffer holds afterwards
  is that store's value: the accumulator after a point is the second payload applied to the two input tiles and to the
  accumulator it found (the zero block at a batch's first tile), and the output block at a batch's last tile is the
  third payload applied to that.
-/
import proofs.«139391_j2525440770049_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- A middle tile: the accumulator ends at `previous + tile product`. -/
theorem acc_mid (c : Dev nD) (i : grid0.Coords) (arg2 : Memref sig .tc .vmem S1x128x4096 .f32) (harg2 : arg2.IsWhole)
    (arg3 : Memref sig .tc .vmem S1x512x4096 .f32) (harg3 : arg3.IsWhole) (arg4 : Memref sig .tc .vmem S1x128x512 .f32)
    (harg4 : arg4.IsWhole) (arg5 : Memref sig .tc .vmem S128x512 .f32) (harg5 : arg5.IsWhole) (hc0 : ¬cond0_0 i)
    (hc1 : ¬cond0_1 i) (x0 : Vec F S1x128x4096 .f32) (x1 : Vec F S1x512x4096 .f32) (xs0 : Vec F S128x512 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero zeros2]
  simp only [View.readAt_eq_ld, harg2.read_unread, harg3.read_unread, harg5.read_unread,
    View.ld_unit_zero (S := S1x128x4096) zeros3, View.ld_unit_zero (S := S1x512x4096) zeros3,
    View.ld_unit_zero (S := S128x512) zeros2]

/-- The first tile of a batch. -/
theorem acc_first (c : Dev nD) (i : grid0.Coords) (arg2 : Memref sig .tc .vmem S1x128x4096 .f32) (harg2 : arg2.IsWhole)
    (arg3 : Memref sig .tc .vmem S1x512x4096 .f32) (harg3 : arg3.IsWhole) (arg4 : Memref sig .tc .vmem S1x128x512 .f32)
    (harg4 : arg4.IsWhole) (arg5 : Memref sig .tc .vmem S128x512 .f32) (harg5 : arg5.IsWhole) (hc0 : cond0_0 i)
    (hc1 : ¬cond0_1 i) (x0 : Vec F S1x128x4096 .f32) (x1 : Vec F S1x512x4096 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S128x512) zeros2, View.readCov_unit_zero (S := S128x512) _ zeros2]
  simp only [View.readAt_eq_ld, harg2.read_unread, harg3.read_unread,
    View.ld_unit_zero (S := S1x128x4096) zeros3, View.ld_unit_zero (S := S1x512x4096) zeros3]

/-- The last tile of a batch: accumulator. -/
theorem acc_last (c : Dev nD) (i : grid0.Coords) (arg2 : Memref sig .tc .vmem S1x128x4096 .f32) (harg2 : arg2.IsWhole)
    (arg3 : Memref sig .tc .vmem S1x512x4096 .f32) (harg3 : arg3.IsWhole) (arg4 : Memref sig .tc .vmem S1x128x512 .f32)
    (harg4 : arg4.IsWhole) (arg5 : Memref sig .tc .vmem S128x512 .f32) (harg5 : arg5.IsWhole) (hc0 : ¬cond0_0 i)
    (hc1 : cond0_1 i) (x0 : Vec F S1x128x4096 .f32) (x1 : Vec F S1x512x4096 .f32) (xs0 : Vec F S128x512 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zeros2]
  simp only [View.readAt_eq_ld, harg2.read_unread, harg3.read_unread, harg5.read_unread,
    View.ld_unit_zero (S := S1x128x4096) zeros3, View.ld_unit_zero (S := S1x512x4096) zeros3,
    View.ld_unit_zero (S := S128x512) zeros2]

/-- The last tile of a batch: output. -/
theorem out_last (c : Dev nD) (i : grid0.Coords) (arg2 : Memref sig .tc .vmem S1x128x4096 .f32) (harg2 : arg2.IsWhole)
    (arg3 : Memref sig .tc .vmem S1x512x4096 .f32) (harg3 : arg3.IsWhole) (arg4 : Memref sig .tc .vmem S1x128x512 .f32)
    (harg4 : arg4.IsWhole) (arg5 : Memref sig .tc .vmem S128x512 .f32) (harg5 : arg5.IsWhole) (hc0 : ¬cond0_0 i)
    (hc1 : cond0_1 i) (x0 : Vec F S1x128x4096 .f32) (x1 : Vec F S1x512x4096 .f32) (xs0 : Vec F S128x512 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zeros3, View.readCov_unit_zero (S := S128x512) _ zeros2]
  simp only [View.readAt_eq_ld, harg2.read_unread, harg3.read_unread, harg5.read_unread,
    View.ld_unit_zero (S := S1x128x4096) zeros3, View.ld_unit_zero (S := S1x512x4096) zeros3,
    View.ld_unit_zero (S := S128x512) zeros2]

end Cert.KernelIdeal.Pieces

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Payload.lean ====
/-
  The body's three stored values at the ideal instance, entry by entry.

  The accumulator is 128 × 512. The value the body stores into it is
  `previous[p, q] + ∑ⱼ x-tile[0, p, j] · mask-tile[0, q, j]` over the tile's 4096 pixels: the two tiles lose their
  leading unit axis, the narrowing to bf16 is the identity on extended reals, the mask tile is transposed so that the
  product is the plain 128 × 4096 by 4096 × 512 one into a zero accumulator, and the sum of that product with the
  previous accumulator is taken entry by entry. The reset value is zero everywhere, and the output block is the
  accumulator with a leading unit axis put back.
-/
import proofs.«139391_j2525440770049_1_alg».proof.Proof.Gen.KernelIdeal.Skeleton
import proofs.«139391_j2525440770049_1_alg».proof.Proof.LibPlainDot
import Idealize.ShloMosaic.Lib.Pipeline.Value
import Idealize.ShloMosaic.Lib.ValueLayout

noncomputable section

namespace Cert.KernelIdeal.Payload

open Cert.KernelIdeal Cert.KernelIdeal.Gen
open Idealize.ShloMosaic Idealize.ShloMosaic.ValueIdx

/-- The reset value: zero at every entry. -/
theorem reset_apply (i : S128x512.Idx) : k0_pay1 (F := Ideal) i = 0 := by
  unfold k0_pay1
  rw [shapeCast_self]
  show Ideal.ofBits .f32 0x00000000#32 = 0
  exact Ideal.ofBits_zero_f32

/-- The accumulated value at `(p, q)`: what was there plus the tile's contraction. -/
theorem step_apply (x0 : Vec Ideal S1x128x4096 .f32) (x1 : Vec Ideal S1x512x4096 .f32) (acc : Vec Ideal S128x512 .f32)
    (p : Fin 128) (q : Fin 512) :
    k0_pay2 x0 x1 acc (ix2 p q) = acc (ix2 p q) + ∑ j : Fin 4096, x0 (ix3 (0 : Fin 1) p j) * x1 (ix3 (0 : Fin 1) q j) := by
  unfold k0_pay2
  rw [shapeCast_self]
  refine congrArg (acc (ix2 p q) + ·) ?_
  refine (Cert.LibPlainDot.matmul_zero_apply dot_S128x4096_S4096x512_S128x512_1_0_0_1_n_n rfl rfl rfl rfl rfl rfl none
    _ _ p q).trans ?_
  refine Finset.sum_congr rfl fun j _ => ?_
  rw [transpose_ix2_apply]
  show shapeCast S128x4096 x0 _ (ix2 p j) * shapeCast S512x4096 x1 _ (ix2 q j) = _
  rw [shapeCast_1ab_ab_apply, shapeCast_1ab_ab_apply]

/-- The output block at `(0, p, q)` is the accumulator at `(p, q)`. -/
theorem copy_apply (v : Vec Ideal S128x512 .f32) (u : Fin 1) (p : Fin 128) (q : Fin 512) :
    k0_pay3 v (ix3 u p q) = v (ix2 p q) := by
  unfold k0_pay3
  rw [shapeCast_ab_1ab_apply]

end Cert.KernelIdeal.Payload

end
-- ==== Proof.TileSum.lean ====
/-
  The batched contraction `out[b, p, q] = ∑ₙ x[b, p, n] · w[b, q, n]` over the extended reals, stated once as a
  function of the two whole arrays, and the same sum cut into sixteen consecutive tiles of 4096 columns: the part
  that grid point `n` (batch `n / 16`, tile `n % 16`) contributes, and the fact that the sixteen parts of one batch
  add up to the whole contraction. Only commutativity and associativity of `+` are used, so nothing here asks the
  entries to be finite.
-/
import Idealize.ShloMosaic.PureOps.Ideal.Laws
import Idealize.ShloMosaic.Lib.ValueIdx

noncomputable section

namespace Cert.RegionAgg

open Idealize.ShloMosaic Idealize.ShloMosaic.ValueIdx

/-- The pixel array `x`: batch × channel × pixel. -/
abbrev XShape : Shape := ⟨3, ![8, 128, 65536]⟩
/-- The mask array `w`: batch × region × pixel. -/
abbrev WShape : Shape := ⟨3, ![8, 512, 65536]⟩
/-- The result: batch × channel × region. -/
abbrev OutShape : Shape := ⟨3, ![8, 128, 512]⟩
/-- One batch's channel × region block (the accumulator). -/
abbrev AccShape : Shape := ⟨2, ![128, 512]⟩

/-- Entry `(b, p, q)` of the result: the sum over all 65536 pixels of `x[b, p, n] · w[b, q, n]`. -/
def aggAt (x : XShape.Idx → EReal) (w : WShape.Idx → EReal) (b : Fin 8) (p : Fin 128) (q : Fin 512) : EReal :=
  ∑ n : Fin 65536, x (ix3 b p n) * w (ix3 b q n)

/-- The whole result array. -/
def agg (x : XShape.Idx → EReal) (w : WShape.Idx → EReal) : OutShape.Idx → EReal :=
  fun i => aggAt x w (i 0) (i 1) (i 2)

/-- The batch that grid point `n` works on (total in `n`: the points of the grid are `n < 128`). -/
abbrev batchOf (n : ℕ) : Fin 8 := ⟨n / 16 % 8, Nat.mod_lt _ (by decide)⟩

/-- Pixel `j` of the tile that grid point `n` works on: column `4096 · (n % 16) + j`. -/
abbrev pixelOf (n : ℕ) (j : Fin 4096) : Fin 65536 :=
  ⟨4096 * (n % 16) + j.val, by have := j.isLt; have := Nat.mod_lt n (show 0 < 16 by decide); omega⟩

/-- What grid point `n` adds to the accumulator at `(p, q)`: the contraction over its tile of 4096 pixels. -/
def tileAt (x : XShape.Idx → EReal) (w : WShape.Idx → EReal) (n : ℕ) (p : Fin 128) (q : Fin 512) : EReal :=
  ∑ j : Fin 4096, x (ix3 (batchOf n) p (pixelOf n j)) * w (ix3 (batchOf n) q (pixelOf n j))

/-- The same as a function of the accumulator's index. -/
def tile (x : XShape.Idx → EReal) (w : WShape.Idx → EReal) (n : ℕ) : AccShape.Idx → EReal :=
  fun i => tileAt x w n (i 0) (i 1)

/-- A sum over `A · B` consecutive positions is the sum over `A` tiles of the sums over each tile's `B` positions. -/
theorem sum_tiles {β : Type*} [AddCommMonoid β] (A B : ℕ) (f : Fin (A * B) → β) :
    ∑ n : Fin (A * B), f n = ∑ s : Fin A, ∑ j : Fin B, f (finProdFinEquiv (s, j)) := by
  rw [← Equiv.sum_comp finProdFinEquiv f, Fintype.sum_prod_type]

/-- The sixteen tiles of batch `b` — grid points `16 b, …, 16 b + 15` — add up to the whole contraction. -/
theorem sum_tileAt (x : XShape.Idx → EReal) (w : WShape.Idx → EReal) (b : Fin 8) (p : Fin 128) (q : Fin 512) :
    ∑ s ∈ Finset.range 16, tileAt x w (16 * b.val + s) p q = aggAt x w b p q := by
  have hb := b.isLt
  rw [Finset.sum_range]
  unfold aggAt tileAt
  rw [sum_tiles 16 4096 (fun n : Fin 65536 => x (ix3 b p n) * w (ix3 b q n))]
  refine Finset.sum_congr rfl fun s _ => Finset.sum_congr rfl fun j _ => ?_
  have hs := s.isLt
  have hj := j.isLt
  have eb : batchOf (16 * b.val + s.val) = b := Fin.ext (by show (16 * b.val + s.val) / 16 % 8 = b.val; omega)
  have en : pixelOf (16 * b.val + s.val) j = (finProdFinEquiv (s, j) : Fin (16 * 4096)) :=
    Fin.ext (by show 4096 * ((16 * b.val + s.val) % 16) + j.val = j.val + 4096 * s.val; omega)
  rw [eb, en]

end Cert.RegionAgg

end
-- ==== Proof.Fold.lean ====
/-
  The accumulator after every grid point, and the output block at a batch's last point, as sums over pixels.

  Grid point `n` is batch `n / 16`, tile `n % 16`. Its two input blocks are the slabs `x[n / 16, :, 4096 (n % 16) + ·]`
  and `w[n / 16, :, 4096 (n % 16) + ·]` of the argument arrays, so the product it adds to the accumulator is the
  contraction over that tile's pixels (`tile`). The accumulator is reset at a batch's first point and carried through
  the other fifteen, so after point `n` it holds `0 + ∑ tile` over the points of the batch up to `n`; at the batch's
  last point that is the contraction over all 65536 pixels, and the output block stored there is a copy of it.
-/
import proofs.«139391_j2525440770049_1_alg».proof.Proof.Gen.KernelIdeal.Value
import proofs.«139391_j2525440770049_1_alg».proof.Proof.Pieces
import proofs.«139391_j2525440770049_1_alg».proof.Proof.Payload
import proofs.«139391_j2525440770049_1_alg».proof.Proof.TileSum

noncomputable section

namespace Cert.KernelIdeal.Fold

open Cert.KernelIdeal Cert.KernelIdeal.Gen Cert.RegionAgg
open Idealize.ShloMosaic Idealize.ShloMosaic.TcCoe Idealize.ShloMosaic.ValueIdx Idealize.SL.Sem

variable (m : (ℓ : Loc nD τ sig) → Buf (Elt Ideal) ℓ)

/-- The pixel array as launched. -/
abbrev xArr (c : Dev nD) : XShape.Idx → EReal := m ((c : Thread nD τ).loc main_arg0)
/-- The mask array as launched. -/
abbrev wArr (c : Dev nD) : WShape.Idx → EReal := m ((c : Thread nD τ).loc main_arg1)
/-- The pixel block staged at point `t`. -/
abbrev xBlk (c : Dev nD) (t : Fin cfg0.N) : Vec Ideal S1x128x4096 .f32 := iblk m c 0 t
/-- The mask block staged at point `t`. -/
abbrev wBlk (c : Dev nD) (t : Fin cfg0.N) : Vec Ideal S1x512x4096 .f32 := iblk m c 1 t

/-- Both input windows sit at block (batch, 0, tile) at point `t`. -/
theorem xIndex : ∀ t : Fin cfg0.N, win0_0.index t 0 = t.val / 16 ∧ win0_0.index t 1 = 0 ∧ win0_0.index t 2 = t.val % 16 :=
  (by decide +kernel : ∀ t : Fin grid0.N, win0_0.index t 0 = t.val / 16 ∧ win0_0.index t 1 = 0 ∧ win0_0.index t 2 = t.val % 16)
theorem wIndex : ∀ t : Fin cfg0.N, win0_1.index t 0 = t.val / 16 ∧ win0_1.index t 1 = 0 ∧ win0_1.index t 2 = t.val % 16 :=
  (by decide +kernel : ∀ t : Fin grid0.N, win0_1.index t 0 = t.val / 16 ∧ win0_1.index t 1 = 0 ∧ win0_1.index t 2 = t.val % 16)

/-- The pixel block at point `t` reads the array at (batch of `t`, row, pixel of the tile of `t`). -/
theorem xBlk_apply (c : Dev nD) (t : Fin cfg0.N) (u : Fin 1) (p : Fin 128) (j : Fin 4096) :
    xBlk m c t (ix3 u p j) = xArr m c (ix3 (batchOf t.val) p (pixelOf t.val j)) := by
  have hi := xIndex t
  have hN : t.val < 128 := lt_of_lt_of_eq t.isLt (show cfg0.N = 128 from N_0)
  have hu := u.isLt
  unfold xBlk iblk
  rw [View.read_apply]
  show V m c main_arg0 _ = _
  unfold V xArr
  congr 1
  funext a
  apply Fin.ext
  match a with
  | ⟨0, _⟩ => show win0_0.index t 0 * 1 + 1 * u.val = t.val / 16 % 8; rw [hi.1]; omega
  | ⟨1, _⟩ => show win0_0.index t 1 * 128 + 1 * p.val = p.val; rw [hi.2.1]; omega
  | ⟨2, _⟩ => show win0_0.index t 2 * 4096 + 1 * j.val = 4096 * (t.val % 16) + j.val; rw [hi.2.2]; omega

/-- The mask block likewise. -/
theorem wBlk_apply (c : Dev nD) (t : Fin cfg0.N) (u : Fin 1) (q : Fin 512) (j : Fin 4096) :
    wBlk m c t (ix3 u q j) = wArr m c (ix3 (batchOf t.val) q (pixelOf t.val j)) := by
  have hi := wIndex t
  have hN : t.val < 128 := lt_of_lt_of_eq t.isLt (show cfg0.N = 128 from N_0)
  have hu := u.isLt
  unfold wBlk iblk
  rw [View.read_apply]
  show V m c main_arg1 _ = _
  unfold V wArr
  congr 1
  funext a
  apply Fin.ext
  match a with
  | ⟨0, _⟩ => show win0_1.index t 0 * 1 + 1 * u.val = t.val / 16 % 8; rw [hi.1]; omega
  | ⟨1, _⟩ => show win0_1.index t 1 * 512 + 1 * q.val = q.val; rw [hi.2.1]; omega
  | ⟨2, _⟩ => show win0_1.index t 2 * 4096 + 1 * j.val = 4096 * (t.val % 16) + j.val; rw [hi.2.2]; omega

/-- At a batch's first point the accumulator ends at `0 + tile`, whatever it held before. -/
theorem first_eq (c : Dev nD) (n : ℕ) (h : n < cfg0.N) (h0 : n % 16 = 0) (acc : Vec Ideal S128x512 .f32)
    (i : S128x512.Idx) :
    Value.scAt0_0 m c n h acc i = 0 + tile (xArr m c) (wArr m c) n i := by
  have h1 : ¬n % 16 = 15 := by omega
  unfold Value.scAt0_0
  rw [dif_pos h0, dif_neg h1]
  obtain ⟨p, q, rfl⟩ : ∃ (p : Fin 128) (q : Fin 512), i = ix2 p q := ⟨i 0, i 1, eq_ix2 i⟩
  refine (congrFun (Pieces.acc_first (F := Ideal) c (grid0.coords ⟨n, h⟩) (ms0_0 ⟨n, h⟩) (hs0_0 ⟨n, h⟩) (ms0_1 ⟨n, h⟩)
    (hs0_1 ⟨n, h⟩) (ms0_2 ⟨n, h⟩) (hs0_2 ⟨n, h⟩) scM0_0 (Memref.isWhole_whole _) ((hcond0_0 ⟨n, h⟩).mpr h0)
    (fun hh => h1 ((hcond0_1 ⟨n, h⟩).mp hh)) (xBlk m c ⟨n, h⟩) (wBlk m c ⟨n, h⟩)) (ix2 p q)).trans ?_
  rw [Payload.step_apply, Payload.reset_apply]
  refine congrArg (0 + ·) ?_
  unfold tile tileAt
  refine Finset.sum_congr rfl fun j _ => ?_
  rw [xBlk_apply, wBlk_apply]

/-- At every other point of the batch it ends at `what it held + tile`. -/
theorem later_eq (c : Dev nD) (n : ℕ) (h : n < cfg0.N) (h0 : ¬n % 16 = 0) (acc : Vec Ideal S128x512 .f32)
    (i : S128x512.Idx) :
    Value.scAt0_0 m c n h acc i = acc i + tile (xArr m c) (wArr m c) n i := by
  unfold Value.scAt0_0
  rw [dif_neg h0]
  obtain ⟨p, q, rfl⟩ : ∃ (p : Fin 128) (q : Fin 512), i = ix2 p q := ⟨i 0, i 1, eq_ix2 i⟩
  have tail : acc (ix2 p q) + ∑ j : Fin 4096, xBlk m c ⟨n, h⟩ (ix3 (0 : Fin 1) p j) * wBlk m c ⟨n, h⟩ (ix3 (0 : Fin 1) q j)
      = acc (ix2 p q) + tile (xArr m c) (wArr m c) n (ix2 p q) := by
    refine congrArg (acc (ix2 p q) + ·) ?_
    unfold tile tileAt
    refine Finset.sum_congr rfl fun j _ => ?_
    rw [xBlk_apply, wBlk_apply]
  by_cases h1 : n % 16 = 15
  · rw [dif_pos h1]
    refine (congrFun (Pieces.acc_last (F := Ideal) c (grid0.coords ⟨n, h⟩) (ms0_0 ⟨n, h⟩) (hs0_0 ⟨n, h⟩) (ms0_1 ⟨n, h⟩)
      (hs0_1 ⟨n, h⟩) (ms0_2 ⟨n, h⟩) (hs0_2 ⟨n, h⟩) scM0_0 (Memref.isWhole_whole _) (fun hh => h0 ((hcond0_0 ⟨n, h⟩).mp hh))
      ((hcond0_1 ⟨n, h⟩).mpr h1) (xBlk m c ⟨n, h⟩) (wBlk m c ⟨n, h⟩) acc) (ix2 p q)).trans ?_
    rw [Payload.step_apply]
    exact tail
  · rw [dif_neg h1]
    refine (congrFun (Pieces.acc_mid (F := Ideal) c (grid0.coords ⟨n, h⟩) (ms0_0 ⟨n, h⟩) (hs0_0 ⟨n, h⟩) (ms0_1 ⟨n, h⟩)
      (hs0_1 ⟨n, h⟩) (ms0_2 ⟨n, h⟩) (hs0_2 ⟨n, h⟩) scM0_0 (Memref.isWhole_whole _) (fun hh => h0 ((hcond0_0 ⟨n, h⟩).mp hh))
      (fun hh => h1 ((hcond0_1 ⟨n, h⟩).mp hh)) (xBlk m c ⟨n, h⟩) (wBlk m c ⟨n, h⟩) acc) (ix2 p q)).trans ?_
    rw [Payload.step_apply]
    exact tail

/-- After point `t` the accumulator holds the tiles of `t`'s batch up to `t`, added to zero. -/
theorem acc_after (c : Dev nD) (t : Fin cfg0.N) (i : S128x512.Idx) :
    (outsAt0 m c t.val t.isLt).2 i
      = 0 + ∑ s ∈ Finset.range (t.val % 16 + 1), tile (xArr m c) (wArr m c) (16 * (t.val / 16) + s) i := by
  have hN : t.val < 128 := lt_of_lt_of_eq t.isLt (show cfg0.N = 128 from N_0)
  rw [Value.soutsAt0_0_eq m c t]
  exact Pipeline.accAt_add_apply (β := EReal) _ _ (fun _ => 0) (fun n => tile (xArr m c) (wArr m c) n)
    (16 * (t.val / 16)) 15
    (fun h i => first_eq m c _ h (by omega) _ i)
    (fun n h acc i hlt hle => later_eq m c n h (by omega) acc i)
    (t.val % 16) (by omega) _ i

/-- The output block stored at a batch's last point is a copy of the accumulator as that point leaves it. -/
theorem out_copy (c : Dev nD) (i : grid0.Coords) (arg2 : Memref sig .tc .vmem S1x128x4096 .f32) (harg2 : arg2.IsWhole)
    (arg3 : Memref sig .tc .vmem S1x512x4096 .f32) (harg3 : arg3.IsWhole) (arg4 : Memref sig .tc .vmem S1x128x512 .f32)
    (harg4 : arg4.IsWhole) (arg5 : Memref sig .tc .vmem S128x512 .f32) (harg5 : arg5.IsWhole) (hc0 : ¬cond0_0 i)
    (hc1 : cond0_1 i) (x0 : Vec Ideal S1x128x4096 .f32) (x1 : Vec Ideal S1x512x4096 .f32) (xs0 : Vec Ideal S128x512 .f32)
    (u : Fin 1) (p : Fin 128) (q : Fin 512) :
    out0_C_2 c i arg2 harg2 arg3 harg3 arg4 harg4 arg5 harg5 hc0 hc1 x0 x1 xs0 (ix3 u p q)
      = sout0_C_0 c i arg2 harg2 arg3 harg3 arg4 harg4 arg5 harg5 hc0 hc1 x0 x1 xs0 (ix2 p q) := by
  rw [Pieces.out_last, Pieces.acc_last, Payload.copy_apply]

/-- So at a batch's last point the output block holds, at `(0, p, q)`, the whole contraction at `(batch, p, q)`. -/
theorem out_at_last (c : Dev nD) (t : Fin cfg0.N) (h1 : t.val % 16 = 15) (u : Fin 1) (p : Fin 128) (q : Fin 512) :
    (outsAt0 m c t.val t.isLt).1 (ix3 u p q) = aggAt (xArr m c) (wArr m c) (batchOf t.val) p q := by
  have hN : t.val < 128 := lt_of_lt_of_eq t.isLt (show cfg0.N = 128 from N_0)
  have h0 : ¬t.val % 16 = 0 := by omega
  have hcopy : (outsAt0 m c t.val t.isLt).1 (ix3 u p q) = (outsAt0 m c t.val t.isLt).2 (ix2 p q) := by
    rw [outsAt0_C m c t h0 h1]
    dsimp only
    exact out_copy c _ _ _ _ _ _ _ _ _ _ _ _ _ _ u p q
  rw [hcopy, acc_after m c t (ix2 p q), h1, zero_add]
  have hb : 16 * (t.val / 16) = 16 * (batchOf t.val).val := by show _ = 16 * (t.val / 16 % 8); omega
  rw [hb]
  exact sum_tileAt (xArr m c) (wArr m c) (batchOf t.val) p q

end Cert.KernelIdeal.Fold

end
-- ==== Proof.Result.lean ====
/-
  The result array after the kernel's run is the contraction `agg` of the two argument arrays.

  The output window sits at block (batch, 0, 0) and is written back only at a batch's last point, where the staged
  block holds the whole contraction for that batch (`out_at_last`). Block `b` of the array is therefore block `b` of
  `agg`, the eight batches' blocks cover the array, and so the array ends holding `agg`.
-/
import proofs.«139391_j2525440770049_1_alg».proof.Proof.Fold

noncomputable section

namespace Cert.KernelIdeal.Result

open Cert.KernelIdeal Cert.KernelIdeal.Gen Cert.KernelIdeal.Fold Cert.RegionAgg
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- What the result array ends holding: the contraction of the arguments as launched. -/
abbrev result (c : Dev nD) : Buf (Elt Ideal) ((c : Thread nD τ).loc main_v0) := agg (xArr m c) (wArr m c)

/-- The output window sits at block (batch, 0, 0) at point `t`. -/
theorem oIndex : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- `result` at an entry whose coordinates are `(b, p, q)`. -/
theorem result_at (c : Dev nD) (i : S8x128x512.Idx) (b : Fin 8) (p : Fin 128) (q : Fin 512)
    (h0 : (i 0).val = b.val) (h1 : (i 1).val = p.val) (h2 : (i 2).val = q.val) :
    result m c i = aggAt (xArr m c) (wArr m c) b p q := by
  have e0 : i 0 = b := Fin.ext h0
  have e1 : i 1 = p := Fin.ext h1
  have e2 : i 2 = q := Fin.ext h2
  show aggAt (xArr m c) (wArr m c) (i 0) (i 1) (i 2) = _
  rw [e0, e1, e2]

/-- What a batch's last point writes back is that batch's block of `agg`. -/
theorem flushed_eq (c : Dev nD) (t : Fin cfg0.N) (hf : (cfg0.win 2).flush t = true) :
    (dats m 0 c).flushed 2 t = ((cfg0.win 2).blk t).view.read (Elt Ideal) (result m c) := by
  have h1 : t.val % 16 = 15 := (flush0_2 t).mp hf
  have hN : t.val < 128 := lt_of_lt_of_eq t.isLt (show cfg0.N = 128 from N_0)
  have hi := oIndex t
  rw [Value.flushed2]
  have hR := result_at m c
  generalize result m c = G at hR ⊢
  funext y
  revert y
  show ∀ y : S1x128x512.Idx, (outsAt0 m c t.val t.isLt).1 y = G (((cfg0.win 2).blk t).view.emb y)
  intro y
  obtain ⟨u, p, q, rfl⟩ : ∃ (u : Fin 1) (p : Fin 128) (q : Fin 512), y = ix3 u p q := ⟨y 0, y 1, y 2, eq_ix3 y⟩
  have hu := u.isLt
  rw [out_at_last m c t h1 u p q]
  refine (hR _ (batchOf t.val) p q ?_ ?_ ?_).symm
  · show win0_2.index t 0 * 1 + 1 * u.val = t.val / 16 % 8; rw [hi.1]; omega
  · show win0_2.index t 1 * 128 + 1 * p.val = p.val; rw [hi.2.1]; omega
  · show win0_2.index t 2 * 512 + 1 * q.val = q.val; rw [hi.2.2]; omega

/-- Every entry of the array lies in the block its batch's last point writes back. -/
theorem covered (i : S8x128x512.Idx) :
    ∃ t : Fin cfg0.N, (cfg0.win 2).flush t = true ∧ i ∈ ((cfg0.win 2).blk t).view.set := by
  have hb : (i 0).val < 8 := (i 0).isLt
  have hp : (i 1).val < 128 := (i 1).isLt
  have hq : (i 2).val < 512 := (i 2).isLt
  have hN : cfg0.N = 128 := N_0
  let t : Fin cfg0.N := ⟨16 * (i 0).val + 15, by rw [hN]; omega⟩
  have ht : t.val = 16 * (i 0).val + 15 := rfl
  have hi := oIndex t
  refine ⟨t, (flush0_2 t).mpr (by rw [ht]; omega), ?_⟩
  show i ∈ ((View.whole main_v0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [hi.1, ht]; omega
  | ⟨1, _⟩ =>
    show win0_2.index t 1 * 128 ≤ (i 1).val ∧ (i 1).val < win0_2.index t 1 * 128 + 128
    rw [hi.2.1]; omega
  | ⟨2, _⟩ =>
    show win0_2.index t 2 * 512 ≤ (i 2).val ∧ (i 2).val < win0_2.index t 2 * 512 + 512
    rw [hi.2.2]; omega

/-- The result array after the last point. -/
theorem final (c : Dev nD) : (dats m 0 c).arrAt 2 cfg0.N = result m c :=
  (dats m 0 c).arrAt_eq_of_cover 2 (result m c) (flushed_eq m c) covered

/-- The kernel's run at the ideal instance: the result array at `agg` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.RefIsAgg.lean ====
/-
  The reference's one operation, a batched `dot_general` contracting the pixel axis, is the contraction `agg`.

  At the ideal instance the host's product at `(b, p, q)` is the sum over the contraction index of the left operand at
  `(b, p, n)` times the right operand at `(b, q, n)`; written with the index constructors of the specification this is
  `aggAt` term by term.
-/
import proofs.«139391_j2525440770049_1_alg».proof.Proof.Gen.ReferenceIdeal.Read
import proofs.«139391_j2525440770049_1_alg».proof.Proof.TileSum

noncomputable section

namespace Cert.ReferenceIdeal.RefValue

open Cert.ReferenceIdeal Cert.ReferenceIdeal.Gen Cert.RegionAgg
open Idealize.ShloMosaic Idealize.ShloMosaic.ValueIdx

/-- The reference's result, as a function of its two arguments, is the contraction over all pixels. -/
theorem dot_eq_agg (x : FVec Ideal S8x128x65536 .f32) (w : FVec Ideal S8x512x65536 .f32) :
    Host.dotGeneral (F := Ideal) dot_S8x128x65536_S8x512x65536_S8x128x512_2_2_1_1_0_0 none x w = agg x w := by
  funext i
  refine (Read.val_main_v0_apply x w i).trans ?_
  unfold agg aggAt
  refine Finset.sum_congr rfl fun n _ => ?_
  have el : Read.lidx_main_v0 i n = ix3 (i 0) (i 1) n :=
    funext fun a => Fin.ext (by match a with | ⟨0, _⟩ => rfl | ⟨1, _⟩ => rfl | ⟨2, _⟩ => rfl)
  have er : Read.ridx_main_v0 i n = ix3 (i 0) (i 2) n :=
    funext fun a => Fin.ext (by match a with | ⟨0, _⟩ => rfl | ⟨1, _⟩ => rfl | ⟨2, _⟩ => rfl)
  rw [el, er]
  rfl

end Cert.ReferenceIdeal.RefValue

end
-- ==== Proof.lean ====
/-
  The kernel computes, for each of 8 batches, the 128 × 512 matrix `out[b, p, q] = ∑ₙ x[b, p, n] · w[b, q, n]` over
  65536 pixels, as sixteen tile products of 4096 pixels each, accumulated in a scratch block that is zeroed at a
  batch's first tile and copied to the output block at its last; the reference is one batched `dot_general` over the
  whole pixel axis. Over the extended reals the narrowing of the tiles to bf16 is the identity, a product into a zero
  accumulator is the plain sum of products, and sixteen consecutive partial sums added to zero are the whole sum —
  only commutativity and associativity of addition, so the finiteness of the inputs is never used.

  The three runs: the kernel at the word level and at the ideal level by the frame of its pipeline; the reference by
  its one host operation. The ideal pass rewrote nothing, so there is nothing to preserve. For the equality of the
  results, the kernel's result array is read block by block (`Result.run`: each batch's last grid point writes that
  batch's block, which holds the accumulated sum of the sixteen tiles, `Fold.out_at_last`), and the reference's
  product is read entry by entry (`RefValue.dot_eq_agg`); both are the same function `agg` of arrays that agree.
-/
import proofs.«139391_j2525440770049_1_alg».proof.Defs
import proofs.«139391_j2525440770049_1_alg».proof.Proof.Gen.Kernel
import proofs.«139391_j2525440770049_1_alg».proof.Proof.Gen.Kernel.Frame
import proofs.«139391_j2525440770049_1_alg».proof.Proof.Gen.KernelIdeal
import proofs.«139391_j2525440770049_1_alg».proof.Proof.Gen.KernelIdeal.Frame
import proofs.«139391_j2525440770049_1_alg».proof.Proof.Gen.KernelIdeal.Value
import proofs.«139391_j2525440770049_1_alg».proof.Proof.Gen.ReferenceIdeal
import proofs.«139391_j2525440770049_1_alg».proof.Proof.Gen.ReferenceIdeal.Run
import proofs.«139391_j2525440770049_1_alg».proof.Proof.Gen.ReferenceIdeal.Read
import proofs.«139391_j2525440770049_1_alg».proof.Proof.Gen.Pre_finite_inputs
import proofs.«139391_j2525440770049_1_alg».proof.Proof.Result
import proofs.«139391_j2525440770049_1_alg».proof.Proof.RefIsAgg
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is one host operation: it runs, writes only its result, and leaves its arguments alone. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both programs end with the contraction `agg` of the arguments in their result arrays. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.dot_eq_agg _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
